-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel

variable [Facts]

def fn {F : FTy → Type} [FloatOps F] (main_arg0 : FVec F S8x2048x1024 .f32) (main_arg1 : FVec F S8x2048x1024 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S8x2048x1024 .f32 := Host.absf main_arg1
  let main_cst_0 : FVec F S_ .f32 := constant S_ .f32 0x7F800000#32
  let main_v5 : FVec F S8x2048x1024 .f32 := broadcastInDim S8x2048x1024 ![] bcast_S_S8x2048x1024 main_cst_0
  let main_v6 : IVec S8x2048x1024 1 := cmpf .olt main_v4 main_v5
  let main_c_1 : IVec S_ 1 := constantI S_ 1 1#1
  let main_v7 : IVec S_ 1 := (fun x v => Host.reduce IntOp.andi x v reducesTo_S8x2048x1024_S_d0_1_2 h_S_) main_v6 main_c_1
  let main_v8 : IVec S_ 1 := andi main_v3 main_v7
  main_v8
-- ==== Kernel.lean ====
abbrev S8x2048x1024 : Shape := ⟨3, ![8, 2048, 1024]⟩
abbrev S8x2048x2048 : Shape := ⟨3, ![8, 2048, 2048]⟩
abbrev S1x1024x1024 : Shape := ⟨3, ![1, 1024, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S8x2048x2048, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1024x1024, .f32⟩
  | .local _ .vmem, ⟨4, _⟩ => ⟨S1x1024x1024, .f32⟩
  | .local _ .vmem, ⟨5, _⟩ => ⟨S1x1024x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 2], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

class Facts₀ : Prop where
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  bitsLt_bf16_f32 : FTy.bits .bf16 < FTy.bits .f32
  transposes_S1024x1024_p1_0_S1024x1024 : S1024x1024.Transposes [1, 0] S1024x1024
  shapeCasts_S1024x1024_S1x1024x1024 : S1024x1024.ShapeCasts S1x1024x1024
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S8x2048x1024.size a
  hwx0_0 : ∀ i : grid0.Coords, EltTy.bits .f32 = 32 ∨ (Rect.block (s := S8x2048x1024) S1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S8x2048x1024.size a
  hwx0_1 : ∀ i : grid0.Coords, EltTy.bits .f32 = 32 ∨ (Rect.block (s := S8x2048x1024) S1x1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1024.size a ≤ S8x2048x2048.size a
  hwx0_2 : ∀ i : grid0.Coords, EltTy.bits .f32 = 32 ∨ (Rect.block (s := S8x2048x2048) S1x1024x1024.size (cc0_transform_2 i) (hinb0_2 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_arg0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x2048x1024 : Shape := ⟨3, ![8, 2048, 1024]⟩
abbrev S8x2048x2048 : Shape := ⟨3, ![8, 2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S8x2048x2048, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  dot_S8x2048x1024_S8x2048x1024_S8x2048x2048_2_2_1_1_0_0_wf : DotDims.WF S8x2048x1024 S8x2048x1024 S8x2048x2048 [2] [2] [1] [1] [0] [0]

variable [Facts₀]

def dot_S8x2048x1024_S8x2048x1024_S8x2048x2048_2_2_1_1_0_0 : DotDims S8x2048x1024 S8x2048x1024 S8x2048x2048 where
  lhsContracting := [2]
  rhsContracting := [2]
  lhsNonContracting := [1]
  rhsNonContracting := [1]
  lhsBatch := [0]
  rhsBatch := [0]
  wf := dot_S8x2048x1024_S8x2048x1024_S8x2048x2048_2_2_1_1_0_0_wf

class Facts : Prop extends Facts₀ where

variable [Facts]
-- ==== Proof.RowDots.lean ====
/-
  The function both programs compute at the ideal values. Given two stacks A, B of eight 2048 × 1024 matrices,
  the result is the stack of eight 2048 × 2048 matrices

      out[b, n, m] = Σ_{e < 1024} A[b, n, e] · B[b, m, e],

  each matrix of A times the transpose of the matching matrix of B. The sum runs over the 1024 products in the order
  of e, on the extended reals; both programs produce exactly this sum (same terms, same index set), so no
  rearrangement law and no finiteness of the entries is needed to compare them.
-/
import Idealize.ShloMosaic.PureOps.Ideal
import Idealize.ShloMosaic.Lib.ValueIdx

noncomputable section

namespace Cert.RowDots

open Idealize.ShloMosaic Idealize.ShloMosaic.ValueIdx

/-- The operands' shape: eight 2048 × 1024 matrices. -/
abbrev SIn : Shape := ⟨3, ![8, 2048, 1024]⟩
/-- The result's shape: eight 2048 × 2048 matrices. -/
abbrev SOut : Shape := ⟨3, ![8, 2048, 2048]⟩

/-- Entry (b, n, m) of the result: row n of A's matrix b dotted with row m of B's matrix b. -/
def rowDots (A B : SIn.Idx → EReal) : SOut.Idx → EReal :=
  fun i => ∑ e : Fin 1024, A (ix3 (i 0 : Fin 8) (i 1 : Fin 2048) e) * B (ix3 (i 0 : Fin 8) (i 2 : Fin 2048) e)

/-- The same with the index written by its coordinates. -/
theorem rowDots_ix3 (A B : SIn.Idx → EReal) (b : Fin 8) (n m : Fin 2048) :
    rowDots A B (ix3 b n m) = ∑ e : Fin 1024, A (ix3 b n e) * B (ix3 b m e) := rfl

end Cert.RowDots

end
-- ==== Proof.RefRowDots.lean ====
/-
  The reference's one operation, a contraction of the two stacks over their last axis with the leading axis kept as a
  batch, is the function of RowDots.lean: at result index (b, n, m) it sums, over e, the first operand at (b, n, e)
  times the second at (b, m, e). The generated index functions and the coordinate form used there name the same
  entries, coordinate by coordinate.
-/
import proofs.«130833_j41841571398230_1_alg».proof.Proof.Gen.ReferenceIdeal.Read
import proofs.«130833_j41841571398230_1_alg».proof.Proof.RowDots

noncomputable section

namespace Cert.ReferenceIdeal.RefValue

open Cert.ReferenceIdeal Cert.ReferenceIdeal.Gen Cert.ReferenceIdeal.Read Idealize.ShloMosaic Idealize.ShloMosaic.ValueIdx
open Cert.RowDots

/-- The first operand is read at (b, n, e). -/
theorem lidx_eq (i : S8x2048x2048.Idx) (k : Fin 1024) :
    lidx_main_v0 i k = ix3 (i 0 : Fin 8) (i 1 : Fin 2048) k :=
  funext fun a => by match a with | ⟨0, _⟩ => rfl | ⟨1, _⟩ => rfl | ⟨2, _⟩ => rfl

/-- The second operand is read at (b, m, e). -/
theorem ridx_eq (i : S8x2048x2048.Idx) (k : Fin 1024) :
    ridx_main_v0 i k = ix3 (i 0 : Fin 8) (i 2 : Fin 2048) k :=
  funext fun a => by match a with | ⟨0, _⟩ => rfl | ⟨1, _⟩ => rfl | ⟨2, _⟩ => rfl

/-- The contraction the reference performs is the stack of row-by-row dot products. -/
theorem contraction_eq (A B : (⟨S8x2048x1024, .f32⟩ : BufTy).Contents (Elt Ideal)) :
    val_main_v0 (F := Ideal) A B = rowDots A B := by
  funext i
  rw [val_main_v0_apply]
  unfold rowDots
  simp only [lidx_eq, ridx_eq]
  rfl

end Cert.ReferenceIdeal.RefValue

end
-- ==== Proof.BlockProduct.lean ====
/-
  One grid point's arithmetic. The body loads a 1 × 1024 × 1024 block of each operand, drops the unit axis, narrows
  both to bf16 (the identity on the ideal values), transposes the second and multiplies the two 1024 × 1024 matrices
  into a zero accumulator; the product is stored back under a unit axis. Read at entry (p, q) of the stored block this is

      Σ_{e < 1024} x[0, p, e] · y[0, q, e],

  row p of the first block dotted with row q of the second: the matrix product contracts the first factor's column
  index with the transposed second factor's row index, which is the second block's column index.
-/
import proofs.«130833_j41841571398230_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.BlockProduct

open Cert.KernelIdeal Cert.KernelIdeal.Gen Idealize.ShloMosaic Idealize.ShloMosaic.ValueIdx

/-! ## Which operand entries the block product reads -/

/-- The left factor's row index is the result's row index. -/
theorem lhs_row (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
/-- The left factor's column index is the summation index. -/
theorem lhs_col (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q
/-- The right factor's row index is the summation index. -/
theorem rhs_row (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q
/-- The right factor's column index is the result's column index. -/
theorem rhs_col (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-! ## The stored block at an entry -/

/-- Entry (u, p, q) of the block the body stores is the dot product of row p of the first loaded block with row q
    of the second. -/
theorem stored_apply (x y : Vec Ideal S1x1024x1024 .f32) (u : Fin 1) (p q : Fin 1024) :
    k0_pay1 (F := Ideal) x y (ix3 u p q) = ∑ e : Fin 1024, x (ix3 (0 : Fin 1) p e) * y (ix3 (0 : Fin 1) q e) := by
  unfold k0_pay1
  dsimp only
  rw [shapeCast_ab_1ab_apply]
  simp only [matmul]
  rw [Ideal.matmul_constant_zero_apply, ← Equiv.sum_comp (contrEquiv1 dot_S1024x1024_S1024x1024_S1024x1024_1_0_0_1_n_n 1024 rfl rfl).symm]
  refine Finset.sum_congr rfl fun k _ => ?_
  have hk := contrEquiv1_symm_val dot_S1024x1024_S1024x1024_S1024x1024_1_0_0_1_n_n 1024 rfl rfl k
  have el : dot_S1024x1024_S1024x1024_S1024x1024_1_0_0_1_n_n.lhsIdx (ix2 p q) ((contrEquiv1 dot_S1024x1024_S1024x1024_S1024x1024_1_0_0_1_n_n 1024 rfl rfl).symm k) = ix2 p k := funext fun a => Fin.ext (by
    match a with
    | ⟨0, _⟩ => exact lhs_row _ _
    | ⟨1, _⟩ => exact (lhs_col _ _).trans hk)
  have er : dot_S1024x1024_S1024x1024_S1024x1024_1_0_0_1_n_n.rhsIdx (ix2 p q) ((contrEquiv1 dot_S1024x1024_S1024x1024_S1024x1024_1_0_0_1_n_n 1024 rfl rfl).symm k) = ix2 k q := funext fun a => Fin.ext (by
    match a with
    | ⟨0, _⟩ => exact (rhs_row _ _).trans hk
    | ⟨1, _⟩ => exact rhs_col _ _)
  rw [el, er, truncf_apply, shapeCast_1ab_ab_apply, transpose_ix2_apply, truncf_apply, shapeCast_1ab_ab_apply]

end Cert.KernelIdeal.BlockProduct

end
-- ==== Proof.WholeArray.lean ====
/-
  From the grid points' blocks to the whole result array. The grid has 8 × 2 × 2 points (b, i, j). Point (b, i, j)
  loads rows 1024·i … 1024·i + 1023 of matrix b of the first operand and rows 1024·j … 1024·j + 1023 of matrix b of
  the second (all 1024 columns of each), and writes back the 1024 × 1024 block at rows 1024·i …, columns 1024·j … of
  matrix b of the result. By BlockProduct.lean its entry (p, q) is the dot product of the loaded rows p and q, which
  is entry (b, 1024·i + p, 1024·j + q) of the function of RowDots.lean; the 32 blocks tile the result, so the array
  ends holding that function everywhere.
-/
import proofs.«130833_j41841571398230_1_alg».proof.Proof.Gen.KernelIdeal.Value
import proofs.«130833_j41841571398230_1_alg».proof.Proof.BlockProduct
import proofs.«130833_j41841571398230_1_alg».proof.Proof.RowDots

set_option maxRecDepth 16384

noncomputable section

namespace Cert.KernelIdeal.WholeArray

open Cert.KernelIdeal Cert.KernelIdeal.Gen Idealize.ShloMosaic Idealize.ShloMosaic.TcCoe Idealize.SL.Sem
open Idealize.ShloMosaic.ValueIdx Cert.RowDots
open Idealize.ShloMosaic.Pipeline (Dat)

variable (m : (ℓ : Loc nD τ sig) → Buf (Elt Ideal) ℓ) (ρ : Dev nD → PrngReg)

/-- The body's one store starts at the origin of its buffer. -/
theorem origin : (![0, 0, 0] : Fin 3 → Nat) = fun _ => 0 := funext fun a => by fin_cases a <;> rfl

/-- The three windows' block indices at a grid point: the operands' follow the result's matrix index, the first
    operand's row block is the result's row block, the second operand's row block is the result's column block, and
    both operands are taken at full width. -/
theorem block_indices : ∀ t : Fin cfg0.N,
    win0_0.index t (0 : Fin 3) = win0_2.index t (0 : Fin 3)
    ∧ win0_0.index t (1 : Fin 3) = win0_2.index t (1 : Fin 3)
    ∧ win0_0.index t (2 : Fin 3) = 0
    ∧ win0_1.index t (0 : Fin 3) = win0_2.index t (0 : Fin 3)
    ∧ win0_1.index t (1 : Fin 3) = win0_2.index t (2 : Fin 3)
    ∧ win0_1.index t (2 : Fin 3) = 0 :=
  (by decide +kernel : ∀ t : Fin grid0.N, _)

/-- Every (matrix, row block, column block) of the result is some grid point's. -/
theorem block_onto : ∀ (q0 : Fin 8) (q1 : Fin 2) (q2 : Fin 2), ∃ t : Fin cfg0.N, win0_2.index t = ![q0.val, q1.val, q2.val] :=
  (by decide +kernel : ∀ (q0 : Fin 8) (q1 : Fin 2) (q2 : Fin 2), ∃ t : Fin grid0.N, win0_2.index t = ![q0.val, q1.val, q2.val])

/-- What a grid point writes back is its block of the row-by-row dot products of the argument arrays. -/
theorem flushed_eq (c : Dev nD) (t : Fin cfg0.N) :
    (dats m 0 c).flushed 2 t = ((cfg0.win 2).blk t).view.read (Elt Ideal) (rowDots (V m c main_arg0) (V m c main_arg1)) := by
  rw [Value.flushed2]
  unfold out0_2
  rw [View.canon_unit_zero origin]
  simp only [View.ld_unit_zero (S := S1x1024x1024) origin]
  obtain ⟨e0, e1, e2, e3, e4, e5⟩ := block_indices t
  refine funext fun (j : S1x1024x1024.Idx) => ?_
  obtain ⟨u, p, q, rfl⟩ : ∃ (u : Fin 1) (p q : Fin 1024), j = ix3 u p q := ⟨j 0, j 1, j 2, eq_ix3 j⟩
  show k0_pay1 (F := Ideal) (iblk m c 0 t) (iblk m c 1 t) (ix3 u p q)
    = rowDots (V m c main_arg0) (V m c main_arg1) (((cfg0.win 2).blk t).view.emb (ix3 u p q))
  refine (BlockProduct.stored_apply _ _ u p q).trans ?_
  unfold rowDots
  refine Finset.sum_congr rfl fun e _ => ?_
  have hu : u.val = 0 := by omega
  have hA : iblk m c 0 t (ix3 (0 : Fin 1) p e)
      = V m c main_arg0 (ix3 ((((cfg0.win 2).blk t).view.emb (ix3 u p q)) 0 : Fin 8) ((((cfg0.win 2).blk t).view.emb (ix3 u p q)) 1 : Fin 2048) e) := by
    show V m c main_arg0 (((cfg0.win 0).blk t).view.emb (ix3 (0 : Fin 1) p e)) = _
    refine congrArg (V m c main_arg0) (funext fun a => Fin.ext ?_)
    match a with
    | ⟨0, _⟩ => show win0_0.index t (0 : Fin 3) * 1 + 1 * 0 = win0_2.index t (0 : Fin 3) * 1 + 1 * u.val; omega
    | ⟨1, _⟩ => show win0_0.index t (1 : Fin 3) * 1024 + 1 * p.val = win0_2.index t (1 : Fin 3) * 1024 + 1 * p.val; omega
    | ⟨2, _⟩ => show win0_0.index t (2 : Fin 3) * 1024 + 1 * e.val = e.val; omega
  have hB : iblk m c 1 t (ix3 (0 : Fin 1) q e)
      = V m c main_arg1 (ix3 ((((cfg0.win 2).blk t).view.emb (ix3 u p q)) 0 : Fin 8) ((((cfg0.win 2).blk t).view.emb (ix3 u p q)) 2 : Fin 2048) e) := by
    show V m c main_arg1 (((cfg0.win 1).blk t).view.emb (ix3 (0 : Fin 1) q e)) = _
    refine congrArg (V m c main_arg1) (funext fun a => Fin.ext ?_)
    match a with
    | ⟨0, _⟩ => show win0_1.index t (0 : Fin 3) * 1 + 1 * 0 = win0_2.index t (0 : Fin 3) * 1 + 1 * u.val; omega
    | ⟨1, _⟩ => show win0_1.index t (1 : Fin 3) * 1024 + 1 * q.val = win0_2.index t (2 : Fin 3) * 1024 + 1 * q.val; omega
    | ⟨2, _⟩ => show win0_1.index t (2 : Fin 3) * 1024 + 1 * e.val = e.val; omega
  rw [hA, hB]

/-- An index of the result lies in a grid point's block iff each coordinate lies in the block's range on its axis. -/
theorem mem_blk (t : Fin cfg0.N) (i : S8x2048x2048.Idx) :
    i ∈ ((cfg0.win 2).blk t).view.set ↔ ∀ a : Fin 3, win0_2.index t a * S1x1024x1024.size a ≤ (i a).val ∧ (i a).val < win0_2.index t a * S1x1024x1024.size a + S1x1024x1024.size a := by
  show i ∈ ((View.whole main_v0).slice (win0_2.rect t)).set ↔ _
  rw [View.set_slice_whole, Rect.mem_set_unit]
  exact Iff.rfl

/-- The blocks tile the result: index (b, n, m) lies in the block of the point with matrix b, row block n / 1024 and
    column block m / 1024. -/
theorem cover (i : S8x2048x2048.Idx) :
    ∃ t : Fin cfg0.N, (cfg0.win 2).flush t = true ∧ i ∈ ((cfg0.win 2).blk t).view.set := by
  have hi0 : (i 0).val < 8 := (i 0).isLt
  have hi1 : (i 1).val < 2048 := (i 1).isLt
  have hi2 : (i 2).val < 2048 := (i 2).isLt
  obtain ⟨t, ht⟩ := block_onto ⟨(i 0).val, hi0⟩ ⟨(i 1).val / 1024, by omega⟩ ⟨(i 2).val / 1024, by omega⟩
  have q0 : win0_2.index t (0 : Fin 3) = (i 0).val := congrFun ht 0
  have q1 : win0_2.index t (1 : Fin 3) = (i 1).val / 1024 := congrFun ht 1
  have q2 : win0_2.index t (2 : Fin 3) = (i 2).val / 1024 := congrFun ht 2
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 1024 ≤ (i 1).val ∧ (i 1).val < win0_2.index t (1 : Fin 3) * 1024 + 1024; omega
  | ⟨2, _⟩ => show win0_2.index t (2 : Fin 3) * 1024 ≤ (i 2).val ∧ (i 2).val < win0_2.index t (2 : Fin 3) * 1024 + 1024; omega

/-- After the run the result array holds the row-by-row dot products of the argument arrays. -/
theorem final (c : Dev nD) :
    (dats m 0 c).arrAt 2 cfg0.N = rowDots (m ((c : Thread nD τ).loc main_arg0)) (m ((c : Thread nD τ).loc main_arg1)) :=
  (dats m 0 c).arrAt_eq_of_cover 2 (rowDots (V m c main_arg0) (V m c main_arg1)) (fun t _ => flushed_eq m c t) cover

/-- The kernel's run, with the result array named as that function of the arguments and the arguments unchanged. -/
theorem run : θ_run defs (onTc (τ := τ) (main (F := Ideal))) ⟨m, fun _ => 0, ρ⟩ fun r => ∀ c : Dev nD,
      r.2.mem ((c : Thread nD τ).loc main_v0) = rowDots (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.WholeArray

end
-- ==== Proof.lean ====
/-
  Both programs take two stacks A, B of eight 2048 × 1024 matrices and return the stack of eight 2048 × 2048 matrices

      out[b, n, m] = Σ_{e < 1024} A[b, n, e] · B[b, m, e]                       (RowDots.lean).

  The reference does it in one contraction over the last axis with the leading axis as a batch (RefRowDots.lean).
  The kernel walks a grid of 8 × 2 × 2 points; at a point it multiplies a 1024 × 1024 block of rows of A's matrix b by
  the transpose of a 1024 × 1024 block of rows of B's matrix b, after narrowing both to bf16 — the identity on the
  ideal values — and stores the product as one block of the result (BlockProduct.lean); the 32 blocks tile the result
  (WholeArray.lean). Each entry is the same sum of the same 1024 products on both sides, so the two results are equal
  on the extended reals with no appeal to the finiteness of the inputs. The frames of the two kernel programs are the
  generated ones; the reference's frame is its generated run with the result dropped; the idealization rewrote no
  operation, so nothing is to be preserved.
-/
import proofs.«130833_j41841571398230_1_alg».proof.Defs
import proofs.«130833_j41841571398230_1_alg».proof.Proof.Gen.Kernel
import proofs.«130833_j41841571398230_1_alg».proof.Proof.Gen.Kernel.Skeleton
import proofs.«130833_j41841571398230_1_alg».proof.Proof.Gen.Kernel.Launch
import proofs.«130833_j41841571398230_1_alg».proof.Proof.Gen.Kernel.Points
import proofs.«130833_j41841571398230_1_alg».proof.Proof.Gen.Kernel.Frame
import proofs.«130833_j41841571398230_1_alg».proof.Proof.Gen.KernelIdeal
import proofs.«130833_j41841571398230_1_alg».proof.Proof.Gen.KernelIdeal.Skeleton
import proofs.«130833_j41841571398230_1_alg».proof.Proof.Gen.KernelIdeal.Launch
import proofs.«130833_j41841571398230_1_alg».proof.Proof.Gen.KernelIdeal.Points
import proofs.«130833_j41841571398230_1_alg».proof.Proof.Gen.KernelIdeal.Frame
import proofs.«130833_j41841571398230_1_alg».proof.Proof.Gen.KernelIdeal.Value
import proofs.«130833_j41841571398230_1_alg».proof.Proof.Gen.ReferenceIdeal
import proofs.«130833_j41841571398230_1_alg».proof.Proof.Gen.ReferenceIdeal.Run
import proofs.«130833_j41841571398230_1_alg».proof.Proof.Gen.ReferenceIdeal.Read
import proofs.«130833_j41841571398230_1_alg».proof.Proof.Gen.Pre_finite_inputs
import proofs.«130833_j41841571398230_1_alg».proof.Proof.RowDots
import proofs.«130833_j41841571398230_1_alg».proof.Proof.RefRowDots
import proofs.«130833_j41841571398230_1_alg».proof.Proof.BlockProduct
import proofs.«130833_j41841571398230_1_alg».proof.Proof.WholeArray
import Idealize.ShloMosaic.Adequacy
import Idealize.ShloMosaic.Init

noncomputable section

namespace Cert.Proof

open Idealize.ShloMosaic Idealize.SL.Sem

/-- The kernel as printed runs to the end and leaves its arguments as they were. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- So does the reference: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From arguments that agree, the kernel's result array and the reference's both end at the row-by-row dot products
    of the arguments. -/
theorem algebraic : Cert.algebraic_KernelIdeal_ReferenceIdeal := by
  intro m ρ m' ρ' _ hagree
  refine ⟨_, Cert.KernelIdeal.WholeArray.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v0_eq _ _).trans (Cert.ReferenceIdeal.RefValue.contraction_eq _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
